-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v71)) (v3 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S4096 : Shape := ⟨1, ![4096]⟩
abbrev S100000x64 : Shape := ⟨2, ![100000, 64]⟩
abbrev S50000x64 : Shape := ⟨2, ![50000, 64]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S4000000 32) (main_arg1 : IVec S4000000 32) (main_arg2 : FVec F S4000000 .f32) (main_arg3 : IVec S4096 32) (main_arg4 : FVec F S100000x64 .f32) (main_arg5 : FVec F S50000x64 .f32) : IVec S_ 1 :=
  let main_v0 : FVec F S4000000 .f32 := Host.absf main_arg2
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg5
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S4000000 : Shape := ⟨1, ![4000000]⟩
abbrev S4096 : Shape := ⟨1, ![4096]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S75000x128 : Shape := ⟨2, ![75000, 128]⟩
abbrev S5000x128 : Shape := ⟨2, ![5000, 128]⟩
abbrev S4096x1 : Shape := ⟨2, ![4096, 1]⟩
abbrev S4096x64 : Shape := ⟨2, ![4096, 64]⟩

abbrev nBuf : Space → Nat
  | .hbm => 102
  | .vmem => 36
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .f32⟩
  | .hbm, ⟨3, _⟩ => ⟨S4096, .i32⟩
  | .hbm, ⟨4, _⟩ => ⟨S100000x64, .f32⟩
  | .hbm, ⟨5, _⟩ => ⟨S50000x64, .f32⟩
  | .hbm, ⟨6, _⟩ => ⟨S150000x64, .f32⟩
  | .hbm, ⟨7, _⟩ => ⟨S_, .f32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S4000000x1, .i32⟩
  | .hbm, ⟨24, _⟩ => ⟨S150000x64, .f32⟩
  | .hbm, ⟨25, _⟩ => ⟨S75000x128, .f32⟩
  | .hbm, ⟨26, _⟩ => ⟨S75000x128, .f32⟩
  | .hbm, ⟨27, _⟩ => ⟨S75000x128, .f32⟩
  | .hbm, ⟨28, _⟩ => ⟨S75000x128, .f32⟩
  | .hbm, ⟨29, _⟩ => ⟨S75000x128, .f32⟩
  | .hbm, ⟨30, _⟩ => ⟨S75000x128, .f32⟩
  | .hbm, ⟨31, _⟩ => ⟨S150000x64, .f32⟩
  | .hbm, ⟨32, _⟩ => ⟨S150000x64, .f32⟩
  | .hbm, ⟨33, _⟩ => ⟨S4000000x1, .f32⟩
  | .hbm, ⟨34, _⟩ => ⟨S_, .i32⟩
  | .hbm, ⟨35, _⟩ => ⟨S4000000, .i32⟩
  | .hbm, ⟨36, _⟩ => ⟨S4000000, .i1⟩
  | .hbm, ⟨37, _⟩ => ⟨S_, .i32⟩
  | .hbm, ⟨38, _⟩ => ⟨S4000000, .i32⟩
  | .hbm, ⟨39, _⟩ => ⟨S4000000, .i32⟩
  | .hbm, ⟨40, _⟩ => ⟨S4000000, .i32⟩
  | .hbm, ⟨41, _⟩ => ⟨S4000000x1, .i32⟩
  | .hbm, ⟨42, _⟩ => ⟨S4000000x64, .f32⟩
  | .hbm, ⟨43, _⟩ => ⟨S4000000x64, .f32⟩
  | .hbm, ⟨44, _⟩ => ⟨S4000000x64, .f32⟩
  | .hbm, ⟨45, _⟩ => ⟨S_, .f32⟩
  | .hbm, ⟨46, _⟩ => ⟨S150000x64, .f32⟩
  | .hbm, ⟨47, _⟩ => ⟨S4000000x1, .i32⟩
  | .hbm, ⟨48, _⟩ => ⟨S150000x64, .f32⟩
  | .hbm, ⟨49, _⟩ => ⟨S75000x128, .f32⟩
  | .hbm, ⟨50, _⟩ => ⟨S75000x128, .f32⟩
  | .hbm, ⟨51, _⟩ => ⟨S75000x128, .f32⟩
  | .hbm, ⟨52, _⟩ => ⟨S75000x128, .f32⟩
  | .hbm, ⟨53, _⟩ => ⟨S75000x128, .f32⟩
  | .hbm, ⟨54, _⟩ => ⟨S75000x128, .f32⟩
  | .hbm, ⟨55, _⟩ => ⟨S150000x64, .f32⟩
  | .hbm, ⟨56, _⟩ => ⟨S150000x64, .f32⟩
  | .hbm, ⟨57, _⟩ => ⟨S4000000x1, .f32⟩
  | .hbm, ⟨58, _⟩ => ⟨S_, .i32⟩
  | .hbm, ⟨59, _⟩ => ⟨S4000000, .i32⟩
  | .hbm, ⟨60, _⟩ => ⟨S4000000, .i1⟩
  | .hbm, ⟨61, _⟩ => ⟨S_, .i32⟩
  | .hbm, ⟨62, _⟩ => ⟨S4000000, .i32⟩
  | .hbm, ⟨63, _⟩ => ⟨S4000000, .i32⟩
  | .hbm, ⟨64, _⟩ => ⟨S4000000, .i32⟩
  | .hbm, ⟨65, _⟩ => ⟨S4000000x1, .i32⟩
  | .hbm, ⟨66, _⟩ => ⟨S4000000x64, .f32⟩
  | .hbm, ⟨67, _⟩ => ⟨S4000000x64, .f32⟩
  | .hbm, ⟨68, _⟩ => ⟨S4000000x64, .f32⟩
  | .hbm, ⟨69, _⟩ => ⟨S_, .f32⟩
  | .hbm, ⟨70, _⟩ => ⟨S150000x64, .f32⟩
  | .hbm, ⟨71, _⟩ => ⟨S4000000x1, .i32⟩
  | .hbm, ⟨72, _⟩ => ⟨S150000x64, .f32⟩
  | .hbm, ⟨73, _⟩ => ⟨S75000x128, .f32⟩
  | .hbm, ⟨74, _⟩ => ⟨S75000x128, .f32⟩
  | .hbm, ⟨75, _⟩ => ⟨S75000x128, .f32⟩
  | .hbm, ⟨76, _⟩ => ⟨S75000x128, .f32⟩
  | .hbm, ⟨77, _⟩ => ⟨S75000x128, .f32⟩
  | .hbm, ⟨78, _⟩ => ⟨S75000x128, .f32⟩
  | .hbm, ⟨79, _⟩ => ⟨S150000x64, .f32⟩
  | .hbm, ⟨80, _⟩ => ⟨S150000x64, .f32⟩
  | .hbm, ⟨81, _⟩ => ⟨S100000x64, .f32⟩
  | .hbm, ⟨82, _⟩ => ⟨S50000x64, .f32⟩
  | .hbm, ⟨83, _⟩ => ⟨S100000x64, .f32⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S4096, .i32⟩
  | .hbm, ⟨91, _⟩ => ⟨S4096x1, .i32⟩
  | .hbm, ⟨92, _⟩ => ⟨S4096x64, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S4096x1, .i32⟩
  | .hbm, ⟨101, _⟩ => ⟨S4096x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_8 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_10 : Ref sig .tc := ⟨.hbm, 93, rfl⟩
abbrev main_v72 : Ref sig .tc := ⟨.hbm, 94, rfl⟩
abbrev main_v73 : Ref sig .tc := ⟨.hbm, 95, rfl⟩
abbrev main_c_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  shapeCasts_S150000x64_S75000x128 : S150000x64.ShapeCasts S75000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S75000x128.size a
  hwx0_0 : ∀ i : grid0.Coords, EltTy.bits .f32 = 32 ∨ (Rect.block (s := S75000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S75000x128.size a
  hwx0_1 : ∀ i : grid0.Coords, EltTy.bits .f32 = 32 ∨ (Rect.block (s := S75000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S75000x128.size a
  hwx0_2 : ∀ i : grid0.Coords, EltTy.bits .f32 = 32 ∨ (Rect.block (s := S75000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S75000x128.size a
  hwx0_3 : ∀ i : grid0.Coords, EltTy.bits .f32 = 32 ∨ (Rect.block (s := S75000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S75000x128.size a
  hwx0_4 : ∀ i : grid0.Coords, EltTy.bits .f32 = 32 ∨ (Rect.block (s := S75000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S75000x128.size a
  hwx0_5 : ∀ i : grid0.Coords, EltTy.bits .f32 = 32 ∨ (Rect.block (s := S75000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S75000x128.size a
  hwx1_1 : ∀ i : grid1.Coords, EltTy.bits .f32 = 32 ∨ (Rect.block (s := S75000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S75000x128.size a
  hwx1_2 : ∀ i : grid1.Coords, EltTy.bits .f32 = 32 ∨ (Rect.block (s := S75000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S75000x128.size a
  hwx1_3 : ∀ i : grid1.Coords, EltTy.bits .f32 = 32 ∨ (Rect.block (s := S75000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S75000x128.size a
  hwx1_4 : ∀ i : grid1.Coords, EltTy.bits .f32 = 32 ∨ (Rect.block (s := S75000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S75000x128.size a
  hwx1_5 : ∀ i : grid1.Coords, EltTy.bits .f32 = 32 ∨ (Rect.block (s := S75000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S75000x128.size a
  hwx2_3 : ∀ i : grid2.Coords, EltTy.bits .f32 = 32 ∨ (Rect.block (s := S75000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S75000x128.size a
  hwx2_4 : ∀ i : grid2.Coords, EltTy.bits .f32 = 32 ∨ (Rect.block (s := S75000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S75000x128.size a
  hwx2_5 : ∀ i : grid2.Coords, EltTy.bits .f32 = 32 ∨ (Rect.block (s := S75000x128) S5000x128.size (cc2_transform_5 i) (hinb2_5 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v59_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v59_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4000000 : Shape := ⟨1, ![4000000]⟩
abbrev S4096 : Shape := ⟨1, ![4096]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 87
  | .vmem => 0
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .f32⟩
  | .hbm, ⟨3, _⟩ => ⟨S4096, .i32⟩
  | .hbm, ⟨4, _⟩ => ⟨S100000x64, .f32⟩
  | .hbm, ⟨5, _⟩ => ⟨S50000x64, .f32⟩
  | .hbm, ⟨6, _⟩ => ⟨S150000x64, .f32⟩
  | .hbm, ⟨7, _⟩ => ⟨S_, .f32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S4000000x1, .i32⟩
  | .hbm, ⟨24, _⟩ => ⟨S150000x64, .f32⟩
  | .hbm, ⟨25, _⟩ => ⟨S150000x64, .f32⟩
  | .hbm, ⟨26, _⟩ => ⟨S150000x64, .f32⟩
  | .hbm, ⟨27, _⟩ => ⟨S150000x64, .f32⟩
  | .hbm, ⟨28, _⟩ => ⟨S4000000x1, .f32⟩
  | .hbm, ⟨29, _⟩ => ⟨S_, .i32⟩
  | .hbm, ⟨30, _⟩ => ⟨S4000000, .i32⟩
  | .hbm, ⟨31, _⟩ => ⟨S4000000, .i1⟩
  | .hbm, ⟨32, _⟩ => ⟨S_, .i32⟩
  | .hbm, ⟨33, _⟩ => ⟨S4000000, .i32⟩
  | .hbm, ⟨34, _⟩ => ⟨S4000000, .i32⟩
  | .hbm, ⟨35, _⟩ => ⟨S4000000, .i32⟩
  | .hbm, ⟨36, _⟩ => ⟨S4000000x1, .i32⟩
  | .hbm, ⟨37, _⟩ => ⟨S4000000x64, .f32⟩
  | .hbm, ⟨38, _⟩ => ⟨S4000000x64, .f32⟩
  | .hbm, ⟨39, _⟩ => ⟨S4000000x64, .f32⟩
  | .hbm, ⟨40, _⟩ => ⟨S_, .f32⟩
  | .hbm, ⟨41, _⟩ => ⟨S150000x64, .f32⟩
  | .hbm, ⟨42, _⟩ => ⟨S4000000x1, .i32⟩
  | .hbm, ⟨43, _⟩ => ⟨S150000x64, .f32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S4000000x1, .f32⟩
  | .hbm, ⟨48, _⟩ => ⟨S_, .i32⟩
  | .hbm, ⟨49, _⟩ => ⟨S4000000, .i32⟩
  | .hbm, ⟨50, _⟩ => ⟨S4000000, .i1⟩
  | .hbm, ⟨51, _⟩ => ⟨S_, .i32⟩
  | .hbm, ⟨52, _⟩ => ⟨S4000000, .i32⟩
  | .hbm, ⟨53, _⟩ => ⟨S4000000, .i32⟩
  | .hbm, ⟨54, _⟩ => ⟨S4000000, .i32⟩
  | .hbm, ⟨55, _⟩ => ⟨S4000000x1, .i32⟩
  | .hbm, ⟨56, _⟩ => ⟨S4000000x64, .f32⟩
  | .hbm, ⟨57, _⟩ => ⟨S4000000x64, .f32⟩
  | .hbm, ⟨58, _⟩ => ⟨S4000000x64, .f32⟩
  | .hbm, ⟨59, _⟩ => ⟨S_, .f32⟩
  | .hbm, ⟨60, _⟩ => ⟨S150000x64, .f32⟩
  | .hbm, ⟨61, _⟩ => ⟨S4000000x1, .i32⟩
  | .hbm, ⟨62, _⟩ => ⟨S150000x64, .f32⟩
  | .hbm, ⟨63, _⟩ => ⟨S150000x64, .f32⟩
  | .hbm, ⟨64, _⟩ => ⟨S150000x64, .f32⟩
  | .hbm, ⟨65, _⟩ => ⟨S150000x64, .f32⟩
  | .hbm, ⟨66, _⟩ => ⟨S100000x64, .f32⟩
  | .hbm, ⟨67, _⟩ => ⟨S50000x64, .f32⟩
  | .hbm, ⟨68, _⟩ => ⟨S100000x64, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x64, .f32⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .i32⟩
  | .hbm, ⟨85, _⟩ => ⟨S4096x1, .i32⟩
  | .hbm, ⟨86, _⟩ => ⟨S4096x64, .f32⟩
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_10 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

class Facts : Prop extends Facts₀ where

variable [Facts]
-- ==== Proof.Region0.lean ====
/-
  One hop's elementwise update, region 0 of the program: the node table reshaped to [75000, 128] is cut into 15 row
  blocks of [5000, 128]; at block `t` the body reads block `t` of the four operands `c` (the hop's input), `s` (the
  smoothed table), `l` and `h` (the two running sums) and writes block `t` of `l + s` and of `h + (c - s)`. Every
  window's block index at point `t` is `(t, 0)`, so the block written back is block `t` of ONE whole-array function of
  the operands as the region finds them, and the 15 blocks cover all 75000 rows: after the region the two result
  arrays hold `l + s` and `h + (c - s)`, index by index. Stated at any contents `V` of the buffers at the region's
  entry and at any float instance.
-/
import proofs.«422746_j13477607374930_3_alg».proof.Proof.Gen.KernelIdeal.Frame
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and one store per buffer sit at offset (0, 0). -/
theorem zero_offsets : (![0, 0] : Fin 2 → Nat) = fun _ => 0 := funext fun a => by fin_cases a <;> rfl

/-- The low-pass payload: the running sum's block plus the smoothed block. -/
theorem low_payload (x1 x2 : Vec F S5000x128 .f32) : k0_pay2 x1 x2 = addf x2 x1 := by
  unfold k0_pay2 k0_pay1
  simp only [shapeCast_self]

/-- The high-pass payload: the running sum's block plus (input block minus smoothed block). -/
theorem high_payload (x0 x1 x3 : Vec F S5000x128 .f32) : k0_pay3 x0 x1 x3 = addf x3 (subf x0 x1) := by
  unfold k0_pay3 k0_pay1
  simp only [shapeCast_self]

/-- Every window's block index at grid point `t` is `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- `l + s` over the whole reshaped table. -/
abbrev lowSum (l s : S75000x128.Idx → Elt F .f32) : S75000x128.Idx → Elt F .f32 :=
  fun i => FloatOps.addf (l i) (s i)

/-- `h + (c - s)` over the whole reshaped table. -/
abbrev highSum (h c s : S75000x128.Idx → Elt F .f32) : S75000x128.Idx → Elt F .f32 :=
  fun i => FloatOps.addf (h i) (FloatOps.subf (c i) (s i))

/-- An input window's element `j` of block `t` sits in its array where the output window's element `j` of block `t`
    sits in its own: row `5000 t + j₀`, lane `j₁`. -/
theorem emb_eq (t : Fin cfg0.N) (j : S5000x128.Idx) :
    ((cfg0.win 0).blk t).view.emb j = ((cfg0.win 4).blk t).view.emb j
    ∧ ((cfg0.win 1).blk t).view.emb j = ((cfg0.win 4).blk t).view.emb j
    ∧ ((cfg0.win 2).blk t).view.emb j = ((cfg0.win 4).blk t).view.emb j
    ∧ ((cfg0.win 3).blk t).view.emb j = ((cfg0.win 4).blk t).view.emb j
    ∧ ((cfg0.win 5).blk t).view.emb j = ((cfg0.win 4).blk t).view.emb j := by
  obtain ⟨e00, e01, e10, e11, e20, e21, e30, e31, e40, e41, e50, e51⟩ := block_index t
  refine ⟨?_, ?_, ?_, ?_, ?_⟩
  · funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  · funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  · funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 128 + 1 * (j 1).val = win0_4.index t (1 : Fin 2) * 128 + 1 * (j 1).val; omega
  · funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 128 + 1 * (j 1).val = win0_4.index t (1 : Fin 2) * 128 + 1 * (j 1).val; omega
  · funext a; apply Fin.ext
    match a with
    | ⟨0, _⟩ => show win0_5.index t (0 : Fin 2) * 5000 + 1 * (j 0).val = win0_4.index t (0 : Fin 2) * 5000 + 1 * (j 0).val; omega
    | ⟨1, _⟩ => show win0_5.index t (1 : Fin 2) * 128 + 1 * (j 1).val = win0_4.index t (1 : Fin 2) * 128 + 1 * (j 1).val; omega

/-- What point `t` writes back through the low-pass window is block `t` of `l + s`. -/
theorem low_flushed (c : Dev nD) (t : Fin cfg0.N) :
    (dat0 V c).flushed 4 t = ((cfg0.win 4).blk t).view.read (Elt F) (lowSum (V c main_v17) (V c main_v16)) := by
  show (cfg0.win 4).cut (grid0.coords t) ((dat0 V c).after 4 t) = _
  rw [after0_4]
  unfold out0_4
  rw [View.canon_unit_zero zero_offsets]
  simp only [View.ld_unit_zero (S := S5000x128) zero_offsets]
  rw [low_payload]
  funext j
  obtain ⟨h0, h1, h2, h3, h5⟩ := emb_eq t j
  show FloatOps.addf (V c main_v17 (((cfg0.win 2).blk t).view.emb j)) (V c main_v16 (((cfg0.win 1).blk t).view.emb j))
    = FloatOps.addf (V c main_v17 (((cfg0.win 4).blk t).view.emb j)) (V c main_v16 (((cfg0.win 4).blk t).view.emb j))
  rw [h2, h1]

/-- What point `t` writes back through the high-pass window is block `t` of `h + (c - s)`. -/
theorem high_flushed (c : Dev nD) (t : Fin cfg0.N) :
    (dat0 V c).flushed 5 t = ((cfg0.win 5).blk t).view.read (Elt F) (highSum (V c main_v18) (V c main_v15) (V c main_v16)) := by
  show (cfg0.win 5).cut (grid0.coords t) ((dat0 V c).after 5 t) = _
  rw [after0_5]
  unfold out0_5
  rw [View.canon_unit_zero zero_offsets]
  simp only [View.ld_unit_zero (S := S5000x128) zero_offsets]
  rw [high_payload]
  funext j
  obtain ⟨h0, h1, h2, h3, h5⟩ := emb_eq t j
  show FloatOps.addf (V c main_v18 (((cfg0.win 3).blk t).view.emb j)) (FloatOps.subf (V c main_v15 (((cfg0.win 0).blk t).view.emb j)) (V c main_v16 (((cfg0.win 1).blk t).view.emb j)))
    = FloatOps.addf (V c main_v18 (((cfg0.win 5).blk t).view.emb j)) (FloatOps.subf (V c main_v15 (((cfg0.win 5).blk t).view.emb j)) (V c main_v16 (((cfg0.win 5).blk t).view.emb j)))
  rw [h3, h0, h1, h5]

/-- An index of the low-pass result array lies in point `t`'s block iff each coordinate is in the block's range. -/
theorem mem_low_block (t : Fin cfg0.N) (i : S75000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19_0).slice (win0_4.rect t)).set ↔ _
  rw [View.set_slice_whole, Rect.mem_set_unit]
  exact Iff.rfl

/-- The same for the high-pass result array. -/
theorem mem_high_block (t : Fin cfg0.N) (i : S75000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19_1).slice (win0_5.rect t)).set ↔ _
  rw [View.set_slice_whole, Rect.mem_set_unit]
  exact Iff.rfl

/-- Row `r` lies in block `r / 5000`. -/
theorem point_of_row (i : S75000x128.Idx) : (i 0).val / 5000 < cfg0.N := by
  have hi0 : (i 0).val < 75000 := (i 0).isLt
  have hN : cfg0.N = 15 := N_0
  rw [hN]; omega

/-- AFTER THE REGION the low-pass result array holds `l + s` of the operands as the region found them. -/
theorem low_out (c : Dev nD) : (dat0 V c).arrAt 4 cfg0.N = lowSum (V c main_v17) (V c main_v16) :=
  (dat0 V c).arrAt_eq_of_cover 4 (lowSum (V c main_v17) (V c main_v16)) (fun t _ => low_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush0_4 _, ?_⟩
    rw [mem_low_block]
    intro a
    match a with
    | ⟨0, _⟩ => show win0_4.index ⟨(i 0).val / 5000, point_of_row i⟩ (0 : Fin 2) * 5000 ≤ (i 0).val ∧ (i 0).val < win0_4.index ⟨(i 0).val / 5000, point_of_row i⟩ (0 : Fin 2) * 5000 + 5000; rw [e40]; show (i 0).val / 5000 * 5000 ≤ (i 0).val ∧ (i 0).val < (i 0).val / 5000 * 5000 + 5000; omega
    | ⟨1, _⟩ => show win0_4.index ⟨(i 0).val / 5000, point_of_row i⟩ (1 : Fin 2) * 128 ≤ (i 1).val ∧ (i 1).val < win0_4.index ⟨(i 0).val / 5000, point_of_row i⟩ (1 : Fin 2) * 128 + 128; rw [e41]; omega

/-- AFTER THE REGION the high-pass result array holds `h + (c - s)` of the operands as the region found them. -/
theorem high_out (c : Dev nD) : (dat0 V c).arrAt 5 cfg0.N = highSum (V c main_v18) (V c main_v15) (V c main_v16) :=
  (dat0 V c).arrAt_eq_of_cover 5 (highSum (V c main_v18) (V c main_v15) (V c main_v16)) (fun t _ => high_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush0_5 _, ?_⟩
    rw [mem_high_block]
    intro a
    match a with
    | ⟨0, _⟩ => show win0_5.index ⟨(i 0).val / 5000, point_of_row i⟩ (0 : Fin 2) * 5000 ≤ (i 0).val ∧ (i 0).val < win0_5.index ⟨(i 0).val / 5000, point_of_row i⟩ (0 : Fin 2) * 5000 + 5000; rw [e50]; show (i 0).val / 5000 * 5000 ≤ (i 0).val ∧ (i 0).val < (i 0).val / 5000 * 5000 + 5000; omega
    | ⟨1, _⟩ => show win0_5.index ⟨(i 0).val / 5000, point_of_row i⟩ (1 : Fin 2) * 128 ≤ (i 1).val ∧ (i 1).val < win0_5.index ⟨(i 0).val / 5000, point_of_row i⟩ (1 : Fin 2) * 128 + 128; rw [e51]; omega

end Cert.KernelIdeal.Region0

end
-- ==== Proof.HopSpec.lean ====
/-
  Three hops of sparse message passing on a bipartite graph, as ONE function of the inputs.
  The node table `x₀` is the user rows stacked on the item rows. One hop sends a table `x` to the table whose row `r`
  is the sum, over the edges `e` with `rows e = r`, of `vals e · x (cols e)` (a gather along the edges, a scaling, a
  scatter-add onto zeros; a negative column index counts from the end). With `s₁ = hop x₀`, `s₂ = hop s₁`,
  `s₃ = hop s₂`, the low-pass sum is `((x₀ + s₁) + s₂) + s₃` and the high-pass sum is
  `((0 + (x₀ - s₁)) + (s₁ - s₂)) + (s₂ - s₃)`. The results are the low-pass user rows at the anchors, the low-pass
  item rows, and the high-pass user rows at the anchors.
  Stated over literal shapes, at any float instance; the side conditions of the layout operations are decided here.
-/
import Idealize.ShloMosaic.PureOps

noncomputable section

namespace Cert.HopSpec

open Idealize.ShloMosaic

abbrev S4000000 : Shape := ⟨1, ![4000000]⟩
abbrev S4096 : Shape := ⟨1, ![4096]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S4096x1 : Shape := ⟨2, ![4096, 1]⟩
abbrev S4096x64 : Shape := ⟨2, ![4096, 64]⟩

theorem stack_ok : Shape.Concatenates [S100000x64, S50000x64] S150000x64 0 := by decide
theorem splat_nodes : S_.BroadcastsInDim S150000x64 (![] : Fin 0 → Fin S150000x64.rank) := by decide
theorem column_edges : S4000000.BroadcastsInDim S4000000x1 (![0] : Fin 1 → Fin S4000000x1.rank) := by decide
theorem splat_edges : S_.BroadcastsInDim S4000000 (![] : Fin 0 → Fin S4000000.rank) := by decide
theorem widen_edges : S4000000x1.BroadcastsInDim S4000000x64 (![0, 1] : Fin 2 → Fin S4000000x64.rank) := by decide
theorem user_rows_ok : S150000x64.Slices ![0, 0] S100000x64 := by decide
theorem item_rows_ok : S150000x64.Slices ![100000, 0] S50000x64 := by decide
theorem splat_batch : S_.BroadcastsInDim S4096 (![] : Fin 0 → Fin S4096.rank) := by decide
theorem column_batch : S4096.BroadcastsInDim S4096x1 (![0] : Fin 1 → Fin S4096x1.rank) := by decide
theorem gather_edges_wf : GatherDims.WF S150000x64 S4000000x1 S4000000x64 [1] [0] [] [0] [] 1 ![1, 64] := by decide
theorem scatter_edges_wf : ScatterDims.WF S150000x64 S4000000x1 S4000000x64 [1] [0] [0] 1 := by decide
theorem gather_batch_wf : GatherDims.WF S100000x64 S4096x1 S4096x64 [1] [0] [] [0] [] 1 ![1, 64] := by decide

/-- Row gather of the node table along the edges: one index per edge, a whole row of 64 taken. -/
def gatherEdges : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_edges_wf

/-- Row scatter of the edge messages onto the node table. -/
def scatterEdges : ScatterDims S150000x64 S4000000x1 S4000000x64 where
  updateWindowDims := [1]
  insertedWindowDims := [0]
  scatterDimsToOperandDims := [0]
  indexVectorDim := 1
  wf := scatter_edges_wf

/-- Row gather of the user table at the anchors. -/
def gatherBatch : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_batch_wf

variable {F : FTy → Type} [FloatOps F]

/-- The node table: the user rows stacked on the item rows. -/
def nodes (u : FVec F S100000x64 .f32) (it : FVec F S50000x64 .f32) : FVec F S150000x64 .f32 :=
  concatenate S150000x64 0 [⟨S100000x64, u⟩, ⟨S50000x64, it⟩] stack_ok

/-- The zero table. -/
def zeros : FVec F S150000x64 .f32 :=
  broadcastInDim S150000x64 ![] splat_nodes (constant S_ .f32 0x00000000#32)

/-- The edges' column indices as a column, a negative index counted from the end of the 150000 rows. -/
def wrapEdges (cols : IVec S4000000 32) : IVec S4000000x1 32 :=
  broadcastInDim S4000000x1 ![0] column_edges
    (select (cmpi .slt cols (broadcastInDim S4000000 ![] splat_edges (constantI S_ 32 0#32)))
      (addi cols (broadcastInDim S4000000 ![] splat_edges (constantI S_ 32 150000#32))) cols)

/-- One hop: row `r` of the result is the sum over the edges into `r` of the edge value times the source row. -/
def hop (rows cols : IVec S4000000 32) (vals : FVec F S4000000 .f32) (x : FVec F S150000x64 .f32) : FVec F S150000x64 .f32 :=
  Host.scatterAdd scatterEdges zeros (broadcastInDim S4000000x1 ![0] column_edges rows)
    (mulf (broadcastInDim S4000000x64 ![0, 1] widen_edges (broadcastInDim S4000000x1 ![0] column_edges vals))
      (Host.gather gatherEdges x (wrapEdges cols)))

/-- The low-pass sum after three hops. -/
def lowAll (rows cols : IVec S4000000 32) (vals : FVec F S4000000 .f32) (x0 : FVec F S150000x64 .f32) : FVec F S150000x64 .f32 :=
  addf (addf (addf x0 (hop rows cols vals x0)) (hop rows cols vals (hop rows cols vals x0)))
    (hop rows cols vals (hop rows cols vals (hop rows cols vals x0)))

/-- The high-pass sum after three hops. -/
def highAll (rows cols : IVec S4000000 32) (vals : FVec F S4000000 .f32) (x0 : FVec F S150000x64 .f32) : FVec F S150000x64 .f32 :=
  addf (addf (addf zeros (subf x0 (hop rows cols vals x0)))
      (subf (hop rows cols vals x0) (hop rows cols vals (hop rows cols vals x0))))
    (subf (hop rows cols vals (hop rows cols vals x0)) (hop rows cols vals (hop rows cols vals (hop rows cols vals x0))))

/-- The user rows of a node table. -/
def users (t : FVec F S150000x64 .f32) : FVec F S100000x64 .f32 :=
  extractStridedSlice S100000x64 ![0, 0] t user_rows_ok

/-- The item rows of a node table. -/
def items (t : FVec F S150000x64 .f32) : FVec F S50000x64 .f32 :=
  extractStridedSlice S50000x64 ![100000, 0] t item_rows_ok

/-- The rows of a user table at the anchors, a negative anchor counted from the end of the 100000 rows. -/
def pick (t : FVec F S100000x64 .f32) (ancs : IVec S4096 32) : FVec F S4096x64 .f32 :=
  Host.gather gatherBatch t
    (broadcastInDim S4096x1 ![0] column_batch
      (select (cmpi .slt ancs (broadcastInDim S4096 ![] splat_batch (constantI S_ 32 0#32)))
        (addi ancs (broadcastInDim S4096 ![] splat_batch (constantI S_ 32 100000#32))) ancs))

/-- Result 0 (and 2): the low-pass user rows at the anchors. -/
def userBatch (rows cols : IVec S4000000 32) (vals : FVec F S4000000 .f32) (ancs : IVec S4096 32)
    (u : FVec F S100000x64 .f32) (it : FVec F S50000x64 .f32) : FVec F S4096x64 .f32 :=
  pick (users (lowAll rows cols vals (nodes u it))) ancs

/-- Result 1: the low-pass item rows. -/
def itemTable (rows cols : IVec S4000000 32) (vals : FVec F S4000000 .f32)
    (u : FVec F S100000x64 .f32) (it : FVec F S50000x64 .f32) : FVec F S50000x64 .f32 :=
  items (lowAll rows cols vals (nodes u it))

/-- Result 3: the high-pass user rows at the anchors. -/
def highBatch (rows cols : IVec S4000000 32) (vals : FVec F S4000000 .f32) (ancs : IVec S4096 32)
    (u : FVec F S100000x64 .f32) (it : FVec F S50000x64 .f32) : FVec F S4096x64 .f32 :=
  pick (users (highAll rows cols vals (nodes u it))) ancs

end Cert.HopSpec

end
-- ==== Proof.LibReshapePointwise.lean ====
/-
  A reshape (a row-major relabelling of the indices) commutes with every pointwise operation, and a reshape
  there and back is the identity. So an elementwise update computed on the reshaped arrays and reshaped back
  is the same update computed on the arrays themselves: the two running sums of a message-passing hop,
  `l + s` and `h + (c - s)`, may be formed at any lane-dense relabelling of the node table.
  Generic in the float instance and in the two shapes.
-/
import Idealize.ShloMosaic.PureOps
import Idealize.ShloMosaic.Lib.Pipeline.Value

noncomputable section

namespace Idealize.ShloMosaic.ReshapePointwise

open Idealize.ShloMosaic

variable {F : FTy → Type} [FloatOps F] {s t : Shape} {φ : FTy}

/-- Reshaping a pointwise sum is the pointwise sum of the reshaped terms: both read the operands at the index of
    the same row-major position. -/
theorem shapeCast_addf (x y : FVec F s φ) (h : s.ShapeCasts t) :
    shapeCast t (addf x y) h = addf (shapeCast t x h) (shapeCast t y h) := rfl

/-- Reshaping a pointwise difference is the pointwise difference of the reshaped terms. -/
theorem shapeCast_subf (x y : FVec F s φ) (h : s.ShapeCasts t) :
    shapeCast t (subf x y) h = subf (shapeCast t x h) (shapeCast t y h) := rfl

/-- The low-pass running sum formed on the reshaped arrays and reshaped back is `l + s`. -/
theorem add_roundTrip (l sm : FVec F s φ) (h : s.ShapeCasts t) (h' : t.ShapeCasts s) :
    shapeCast s (addf (shapeCast t l h) (shapeCast t sm h)) h' = addf l sm := by
  rw [← shapeCast_addf, shapeCast_shapeCast]

/-- The high-pass running sum formed on the reshaped arrays and reshaped back is `hp + (c - s)`. -/
theorem add_sub_roundTrip (hp c sm : FVec F s φ) (h : s.ShapeCasts t) (h' : t.ShapeCasts s) :
    shapeCast s (addf (shapeCast t hp h) (subf (shapeCast t c h) (shapeCast t sm h))) h' = addf hp (subf c sm) := by
  rw [← shapeCast_subf, ← shapeCast_addf, shapeCast_shapeCast]

end Idealize.ShloMosaic.ReshapePointwise

end
-- ==== Proof.Walk1.lean ====
/-
  The buffers' contents as the program goes, first part: after the host operations before the first region, and
  after the first region. The smoothed table of the first hop, the four reshaped operands of the region, and the
  region's two results `flat (x₀ + s₁)` and `flat (0 + (x₀ - s₁))`: reshaping commutes with the pointwise sums, so the
  region's whole-array results on the reshaped operands are the reshaped sums.
-/
import proofs.«422746_j13477607374930_3_alg».proof.Proof.Gen.KernelIdeal.Frame
import proofs.«422746_j13477607374930_3_alg».proof.Proof.Region0
import proofs.«422746_j13477607374930_3_alg».proof.Proof.HopSpec
import proofs.«422746_j13477607374930_3_alg».proof.Proof.LibReshapePointwise
import Idealize.ShloMosaic.Lib.StableHlo.Run
import Idealize.ShloMosaic.Lib.Pipeline.Value

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

abbrev rows (c : Dev nD) : IVec HopSpec.S4000000 32 := m ((c : Thread nD τ).loc main_arg0)
abbrev cols (c : Dev nD) : IVec HopSpec.S4000000 32 := m ((c : Thread nD τ).loc main_arg1)
abbrev vals (c : Dev nD) : FVec F HopSpec.S4000000 .f32 := m ((c : Thread nD τ).loc main_arg2)
abbrev ancs (c : Dev nD) : IVec HopSpec.S4096 32 := m ((c : Thread nD τ).loc main_arg3)
abbrev x0 (c : Dev nD) : FVec F HopSpec.S150000x64 .f32 :=
  HopSpec.nodes (m ((c : Thread nD τ).loc main_arg4)) (m ((c : Thread nD τ).loc main_arg5))
abbrev s1 (c : Dev nD) : FVec F HopSpec.S150000x64 .f32 := HopSpec.hop (rows m c) (cols m c) (vals m c) (x0 m c)
abbrev s2 (c : Dev nD) : FVec F HopSpec.S150000x64 .f32 := HopSpec.hop (rows m c) (cols m c) (vals m c) (s1 m c)
abbrev s3 (c : Dev nD) : FVec F HopSpec.S150000x64 .f32 := HopSpec.hop (rows m c) (cols m c) (vals m c) (s2 m c)
abbrev l1 (c : Dev nD) : FVec F HopSpec.S150000x64 .f32 := addf (x0 m c) (s1 m c)
abbrev h1 (c : Dev nD) : FVec F HopSpec.S150000x64 .f32 := addf HopSpec.zeros (subf (x0 m c) (s1 m c))
abbrev l2 (c : Dev nD) : FVec F HopSpec.S150000x64 .f32 := addf (l1 m c) (s2 m c)
abbrev h2 (c : Dev nD) : FVec F HopSpec.S150000x64 .f32 := addf (h1 m c) (subf (s1 m c) (s2 m c))
abbrev l3 (c : Dev nD) : FVec F HopSpec.S150000x64 .f32 := addf (l2 m c) (s3 m c)
abbrev h3 (c : Dev nD) : FVec F HopSpec.S150000x64 .f32 := addf (h2 m c) (subf (s2 m c) (s3 m c))

/-- The node table relabelled to 128 lanes. -/
abbrev flat (x : FVec F HopSpec.S150000x64 .f32) : FVec F S75000x128 .f32 :=
  shapeCast S75000x128 x shapeCasts_S150000x64_S75000x128

/-! ## Boundary 1: after the first host stretch -/

theorem at1_arg0 (c : Dev nD) : W1 m ρ c (Proc.devRef .tc main_arg0) = rows m c := by
  dsimp only [W1, hostOps0]; after_results_simp <;> rfl
theorem at1_arg1 (c : Dev nD) : W1 m ρ c (Proc.devRef .tc main_arg1) = cols m c := by
  dsimp only [W1, hostOps0]; after_results_simp <;> rfl
theorem at1_arg2 (c : Dev nD) : W1 m ρ c (Proc.devRef .tc main_arg2) = vals m c := by
  dsimp only [W1, hostOps0]; after_results_simp <;> rfl
theorem at1_arg3 (c : Dev nD) : W1 m ρ c (Proc.devRef .tc main_arg3) = ancs m c := by
  dsimp only [W1, hostOps0]; after_results_simp <;> rfl
set_option maxHeartbeats 4000000 in
theorem at1_v14 (c : Dev nD) : W1 m ρ c (Proc.devRef .tc main_v14) = s1 m c := by
  dsimp only [W1, hostOps0]; after_results_simp <;> rfl
theorem at1_v15 (c : Dev nD) : W1 m ρ c (Proc.devRef .tc main_v15) = flat (x0 m c) := by
  dsimp only [W1, hostOps0]; after_results_simp <;> rfl
set_option maxHeartbeats 4000000 in
theorem at1_v16 (c : Dev nD) : W1 m ρ c (Proc.devRef .tc main_v16) = flat (s1 m c) := by
  dsimp only [W1, hostOps0]; after_results_simp <;> rfl
theorem at1_v17 (c : Dev nD) : W1 m ρ c (Proc.devRef .tc main_v17) = flat (x0 m c) := by
  dsimp only [W1, hostOps0]; after_results_simp <;> rfl
theorem at1_v18 (c : Dev nD) : W1 m ρ c (Proc.devRef .tc main_v18) = flat HopSpec.zeros := by
  dsimp only [W1, hostOps0]; after_results_simp <;> rfl

/-! ## Boundary 2: after the first region -/

theorem at2_low (c : Dev nD) : W2 m ρ c (Proc.devRef .tc main_v19_0) = flat (l1 m c) := by
  refine (W2_arr m ρ c 4).trans ?_
  rw [Region0.low_out]
  show Region0.lowSum (W1 m ρ c (Proc.devRef .tc main_v17)) (W1 m ρ c (Proc.devRef .tc main_v16)) = _
  rw [at1_v17, at1_v16]
  rfl
theorem at2_high (c : Dev nD) : W2 m ρ c (Proc.devRef .tc main_v19_1) = flat (h1 m c) := by
  refine (W2_arr m ρ c 5).trans ?_
  rw [Region0.high_out]
  show Region0.highSum (W1 m ρ c (Proc.devRef .tc main_v18)) (W1 m ρ c (Proc.devRef .tc main_v15)) (W1 m ρ c (Proc.devRef .tc main_v16)) = _
  rw [at1_v18, at1_v15, at1_v16]
  rfl
theorem at2_v14 (c : Dev nD) : W2 m ρ c (Proc.devRef .tc main_v14) = s1 m c :=
  (W2_of_ne m ρ c main_v14 (by decide)).trans (at1_v14 m ρ c)
theorem at2_arg0 (c : Dev nD) : W2 m ρ c (Proc.devRef .tc main_arg0) = rows m c :=
  (W2_of_ne m ρ c main_arg0 (by decide)).trans (at1_arg0 m ρ c)
theorem at2_arg1 (c : Dev nD) : W2 m ρ c (Proc.devRef .tc main_arg1) = cols m c :=
  (W2_of_ne m ρ c main_arg1 (by decide)).trans (at1_arg1 m ρ c)
theorem at2_arg2 (c : Dev nD) : W2 m ρ c (Proc.devRef .tc main_arg2) = vals m c :=
  (W2_of_ne m ρ c main_arg2 (by decide)).trans (at1_arg2 m ρ c)
theorem at2_arg3 (c : Dev nD) : W2 m ρ c (Proc.devRef .tc main_arg3) = ancs m c :=
  (W2_of_ne m ρ c main_arg3 (by decide)).trans (at1_arg3 m ρ c)

end Cert.KernelIdeal.Walk

end
-- ==== Proof.Region1.lean ====
/-
  One hop's elementwise update, region 1 of the program: the node table reshaped to [75000, 128] is cut into 15 row
  blocks of [5000, 128]; at block `t` the body reads block `t` of the four operands `c` (the hop's input), `s` (the
  smoothed table), `l` and `h` (the two running sums) and writes block `t` of `l + s` and of `h + (c - s)`. Every
  window's block index at point `t` is `(t, 0)`, so the block written back is block `t` of ONE whole-array function of
  the operands as the region finds them, and the 15 blocks cover all 75000 rows: after the region the two result
  arrays hold `l + s` and `h + (c - s)`, index by index. Stated at any contents `V` of the buffers at the region's
  entry and at any float instance.
-/
import proofs.«422746_j13477607374930_3_alg».proof.Proof.Gen.KernelIdeal.Frame
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and one store per buffer sit at offset (0, 0). -/
theorem zero_offsets : (![0, 0] : Fin 2 → Nat) = fun _ => 0 := funext fun a => by fin_cases a <;> rfl

/-- The low-pass payload: the running sum's block plus the smoothed block. -/
theorem low_payload (x1 x2 : Vec F S5000x128 .f32) : k1_pay2 x1 x2 = addf x2 x1 := by
  unfold k1_pay2 k1_pay1
  simp only [shapeCast_self]

/-- The high-pass payload: the running sum's block plus (input block minus smoothed block). -/
theorem high_payload (x0 x1 x3 : Vec F S5000x128 .f32) : k1_pay3 x0 x1 x3 = addf x3 (subf x0 x1) := by
  unfold k1_pay3 k1_pay1
  simp only [shapeCast_self]

/-- Every window's block index at grid point `t` is `(t, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- `l + s` over the whole reshaped table. -/
abbrev lowSum (l s : S75000x128.Idx → Elt F .f32) : S75000x128.Idx → Elt F .f32 :=
  fun i => FloatOps.addf (l i) (s i)

/-- `h + (c - s)` over the whole reshaped table. -/
abbrev highSum (h c s : S75000x128.Idx → Elt F .f32) : S75000x128.Idx → Elt F .f32 :=
  fun i => FloatOps.addf (h i) (FloatOps.subf (c i) (s i))

/-- An input window's element `j` of block `t` sits in its array where the output window's element `j` of block `t`
    sits in its own: row `5000 t + j₀`, lane `j₁`. -/
theorem emb_eq (t : Fin cfg1.N) (j : S5000x128.Idx) :
    ((cfg1.win 0).blk t).view.emb j = ((cfg1.win 4).blk t).view.emb j
    ∧ ((cfg1.win 1).blk t).view.emb j = ((cfg1.win 4).blk t).view.emb j
    ∧ ((cfg1.win 2).blk t).view.emb j = ((cfg1.win 4).blk t).view.emb j
    ∧ ((cfg1.win 3).blk t).view.emb j = ((cfg1.win 4).blk t).view.emb j
    ∧ ((cfg1.win 5).blk t).view.emb j = ((cfg1.win 4).blk t).view.emb j := by
  obtain ⟨e00, e01, e10, e11, e20, e21, e30, e31, e40, e41, e50, e51⟩ := block_index t
  refine ⟨?_, ?_, ?_, ?_, ?_⟩
  · funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  · funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 128 + 1 * (j 1).val = win1_4.index t (1 : Fin 2) * 128 + 1 * (j 1).val; omega
  · funext a; apply Fin.ext
    match a with
    | ⟨0, _⟩ => show win1_5.index t (0 : Fin 2) * 5000 + 1 * (j 0).val = win1_4.index t (0 : Fin 2) * 5000 + 1 * (j 0).val; omega
    | ⟨1, _⟩ => show win1_5.index t (1 : Fin 2) * 128 + 1 * (j 1).val = win1_4.index t (1 : Fin 2) * 128 + 1 * (j 1).val; omega

/-- What point `t` writes back through the low-pass window is block `t` of `l + s`. -/
theorem low_flushed (c : Dev nD) (t : Fin cfg1.N) :
    (dat1 V c).flushed 4 t = ((cfg1.win 4).blk t).view.read (Elt F) (lowSum (V c main_v37) (V c main_v36)) := by
  show (cfg1.win 4).cut (grid1.coords t) ((dat1 V c).after 4 t) = _
  rw [after1_4]
  unfold out1_4
  rw [View.canon_unit_zero zero_offsets]
  simp only [View.ld_unit_zero (S := S5000x128) zero_offsets]
  rw [low_payload]
  funext j
  obtain ⟨h0, h1, h2, h3, h5⟩ := emb_eq t j
  show FloatOps.addf (V c main_v37 (((cfg1.win 2).blk t).view.emb j)) (V c main_v36 (((cfg1.win 1).blk t).view.emb j))
    = FloatOps.addf (V c main_v37 (((cfg1.win 4).blk t).view.emb j)) (V c main_v36 (((cfg1.win 4).blk t).view.emb j))
  rw [h2, h1]

/-- What point `t` writes back through the high-pass window is block `t` of `h + (c - s)`. -/
theorem high_flushed (c : Dev nD) (t : Fin cfg1.N) :
    (dat1 V c).flushed 5 t = ((cfg1.win 5).blk t).view.read (Elt F) (highSum (V c main_v38) (V c main_v35) (V c main_v36)) := by
  show (cfg1.win 5).cut (grid1.coords t) ((dat1 V c).after 5 t) = _
  rw [after1_5]
  unfold out1_5
  rw [View.canon_unit_zero zero_offsets]
  simp only [View.ld_unit_zero (S := S5000x128) zero_offsets]
  rw [high_payload]
  funext j
  obtain ⟨h0, h1, h2, h3, h5⟩ := emb_eq t j
  show FloatOps.addf (V c main_v38 (((cfg1.win 3).blk t).view.emb j)) (FloatOps.subf (V c main_v35 (((cfg1.win 0).blk t).view.emb j)) (V c main_v36 (((cfg1.win 1).blk t).view.emb j)))
    = FloatOps.addf (V c main_v38 (((cfg1.win 5).blk t).view.emb j)) (FloatOps.subf (V c main_v35 (((cfg1.win 5).blk t).view.emb j)) (V c main_v36 (((cfg1.win 5).blk t).view.emb j)))
  rw [h3, h0, h1, h5]

/-- An index of the low-pass result array lies in point `t`'s block iff each coordinate is in the block's range. -/
theorem mem_low_block (t : Fin cfg1.N) (i : S75000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v39_0).slice (win1_4.rect t)).set ↔ _
  rw [View.set_slice_whole, Rect.mem_set_unit]
  exact Iff.rfl

/-- The same for the high-pass result array. -/
theorem mem_high_block (t : Fin cfg1.N) (i : S75000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39_1).slice (win1_5.rect t)).set ↔ _
  rw [View.set_slice_whole, Rect.mem_set_unit]
  exact Iff.rfl

/-- Row `r` lies in block `r / 5000`. -/
theorem point_of_row (i : S75000x128.Idx) : (i 0).val / 5000 < cfg1.N := by
  have hi0 : (i 0).val < 75000 := (i 0).isLt
  have hN : cfg1.N = 15 := N_1
  rw [hN]; omega

/-- AFTER THE REGION the low-pass result array holds `l + s` of the operands as the region found them. -/
theorem low_out (c : Dev nD) : (dat1 V c).arrAt 4 cfg1.N = lowSum (V c main_v37) (V c main_v36) :=
  (dat1 V c).arrAt_eq_of_cover 4 (lowSum (V c main_v37) (V c main_v36)) (fun t _ => low_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush1_4 _, ?_⟩
    rw [mem_low_block]
    intro a
    match a with
    | ⟨0, _⟩ => show win1_4.index ⟨(i 0).val / 5000, point_of_row i⟩ (0 : Fin 2) * 5000 ≤ (i 0).val ∧ (i 0).val < win1_4.index ⟨(i 0).val / 5000, point_of_row i⟩ (0 : Fin 2) * 5000 + 5000; rw [e40]; show (i 0).val / 5000 * 5000 ≤ (i 0).val ∧ (i 0).val < (i 0).val / 5000 * 5000 + 5000; omega
    | ⟨1, _⟩ => show win1_4.index ⟨(i 0).val / 5000, point_of_row i⟩ (1 : Fin 2) * 128 ≤ (i 1).val ∧ (i 1).val < win1_4.index ⟨(i 0).val / 5000, point_of_row i⟩ (1 : Fin 2) * 128 + 128; rw [e41]; omega

/-- AFTER THE REGION the high-pass result array holds `h + (c - s)` of the operands as the region found them. -/
theorem high_out (c : Dev nD) : (dat1 V c).arrAt 5 cfg1.N = highSum (V c main_v38) (V c main_v35) (V c main_v36) :=
  (dat1 V c).arrAt_eq_of_cover 5 (highSum (V c main_v38) (V c main_v35) (V c main_v36)) (fun t _ => high_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush1_5 _, ?_⟩
    rw [mem_high_block]
    intro a
    match a with
    | ⟨0, _⟩ => show win1_5.index ⟨(i 0).val / 5000, point_of_row i⟩ (0 : Fin 2) * 5000 ≤ (i 0).val ∧ (i 0).val < win1_5.index ⟨(i 0).val / 5000, point_of_row i⟩ (0 : Fin 2) * 5000 + 5000; rw [e50]; show (i 0).val / 5000 * 5000 ≤ (i 0).val ∧ (i 0).val < (i 0).val / 5000 * 5000 + 5000; omega
    | ⟨1, _⟩ => show win1_5.index ⟨(i 0).val / 5000, point_of_row i⟩ (1 : Fin 2) * 128 ≤ (i 1).val ∧ (i 1).val < win1_5.index ⟨(i 0).val / 5000, point_of_row i⟩ (1 : Fin 2) * 128 + 128; rw [e51]; omega

end Cert.KernelIdeal.Region1

end
-- ==== Proof.Walk2.lean ====
/-
  The buffers' contents as the program goes, second part: after the host operations between the first and the second
  region (the second hop's smoothed table; the running sums reshaped back and reshaped again: a reshape there and back
  is the identity), and after the second region.
-/
import proofs.«422746_j13477607374930_3_alg».proof.Proof.Walk1
import proofs.«422746_j13477607374930_3_alg».proof.Proof.Region1

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Boundary 3: after the second host stretch -/

theorem at3_arg0 (c : Dev nD) : W3 m ρ c (Proc.devRef .tc main_arg0) = rows m c := by
  dsimp only [W3, hostOps1]; after_results_simp; exact at2_arg0 m ρ c
theorem at3_arg1 (c : Dev nD) : W3 m ρ c (Proc.devRef .tc main_arg1) = cols m c := by
  dsimp only [W3, hostOps1]; after_results_simp; exact at2_arg1 m ρ c
theorem at3_arg2 (c : Dev nD) : W3 m ρ c (Proc.devRef .tc main_arg2) = vals m c := by
  dsimp only [W3, hostOps1]; after_results_simp; exact at2_arg2 m ρ c
theorem at3_arg3 (c : Dev nD) : W3 m ρ c (Proc.devRef .tc main_arg3) = ancs m c := by
  dsimp only [W3, hostOps1]; after_results_simp; exact at2_arg3 m ρ c
set_option maxHeartbeats 4000000 in
theorem at3_v34 (c : Dev nD) : W3 m ρ c (Proc.devRef .tc main_v34) = s2 m c := by
  dsimp only [W3, hostOps1]; after_results_simp
  rw [at2_v14, at2_arg0, at2_arg1, at2_arg2]
  rfl
theorem at3_v35 (c : Dev nD) : W3 m ρ c (Proc.devRef .tc main_v35) = flat (s1 m c) := by
  dsimp only [W3, hostOps1]; after_results_simp
  rw [at2_v14]
  rfl
set_option maxHeartbeats 4000000 in
theorem at3_v36 (c : Dev nD) : W3 m ρ c (Proc.devRef .tc main_v36) = flat (s2 m c) := by
  dsimp only [W3, hostOps1]; after_results_simp
  rw [at2_v14, at2_arg0, at2_arg1, at2_arg2]
  rfl
theorem at3_v37 (c : Dev nD) : W3 m ρ c (Proc.devRef .tc main_v37) = flat (l1 m c) := by
  dsimp only [W3, hostOps1]; after_results_simp
  rw [at2_low]
  show flat (shapeCast S150000x64 (flat (l1 m c)) shapeCasts_S75000x128_S150000x64) = _
  rw [shapeCast_shapeCast]
theorem at3_v38 (c : Dev nD) : W3 m ρ c (Proc.devRef .tc main_v38) = flat (h1 m c) := by
  dsimp only [W3, hostOps1]; after_results_simp
  rw [at2_high]
  show flat (shapeCast S150000x64 (flat (h1 m c)) shapeCasts_S75000x128_S150000x64) = _
  rw [shapeCast_shapeCast]

/-! ## Boundary 4: after the second region -/

theorem at4_low (c : Dev nD) : W4 m ρ c (Proc.devRef .tc main_v39_0) = flat (l2 m c) := by
  refine (W4_arr m ρ c 4).trans ?_
  rw [Region1.low_out]
  show Region1.lowSum (W3 m ρ c (Proc.devRef .tc main_v37)) (W3 m ρ c (Proc.devRef .tc main_v36)) = _
  rw [at3_v37, at3_v36]
  rfl
theorem at4_high (c : Dev nD) : W4 m ρ c (Proc.devRef .tc main_v39_1) = flat (h2 m c) := by
  refine (W4_arr m ρ c 5).trans ?_
  rw [Region1.high_out]
  show Region1.highSum (W3 m ρ c (Proc.devRef .tc main_v38)) (W3 m ρ c (Proc.devRef .tc main_v35)) (W3 m ρ c (Proc.devRef .tc main_v36)) = _
  rw [at3_v38, at3_v35, at3_v36]
  rfl
theorem at4_v34 (c : Dev nD) : W4 m ρ c (Proc.devRef .tc main_v34) = s2 m c :=
  (W4_of_ne m ρ c main_v34 (by decide)).trans (at3_v34 m ρ c)
theorem at4_arg0 (c : Dev nD) : W4 m ρ c (Proc.devRef .tc main_arg0) = rows m c :=
  (W4_of_ne m ρ c main_arg0 (by decide)).trans (at3_arg0 m ρ c)
theorem at4_arg1 (c : Dev nD) : W4 m ρ c (Proc.devRef .tc main_arg1) = cols m c :=
  (W4_of_ne m ρ c main_arg1 (by decide)).trans (at3_arg1 m ρ c)
theorem at4_arg2 (c : Dev nD) : W4 m ρ c (Proc.devRef .tc main_arg2) = vals m c :=
  (W4_of_ne m ρ c main_arg2 (by decide)).trans (at3_arg2 m ρ c)
theorem at4_arg3 (c : Dev nD) : W4 m ρ c (Proc.devRef .tc main_arg3) = ancs m c :=
  (W4_of_ne m ρ c main_arg3 (by decide)).trans (at3_arg3 m ρ c)

end Cert.KernelIdeal.Walk

end
-- ==== Proof.Region2.lean ====
/-
  One hop's elementwise update, region 2 of the program: the node table reshaped to [75000, 128] is cut into 15 row
  blocks of [5000, 128]; at block `t` the body reads block `t` of the four operands `c` (the hop's input), `s` (the
  smoothed table), `l` and `h` (the two running sums) and writes block `t` of `l + s` and of `h + (c - s)`. Every
  window's block index at point `t` is `(t, 0)`, so the block written back is block `t` of ONE whole-array function of
  the operands as the region finds them, and the 15 blocks cover all 75000 rows: after the region the two result
  arrays hold `l + s` and `h + (c - s)`, index by index. Stated at any contents `V` of the buffers at the region's
  entry and at any float instance.
-/
import proofs.«422746_j13477607374930_3_alg».proof.Proof.Gen.KernelIdeal.Frame
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and one store per buffer sit at offset (0, 0). -/
theorem zero_offsets : (![0, 0] : Fin 2 → Nat) = fun _ => 0 := funext fun a => by fin_cases a <;> rfl

/-- The low-pass payload: the running sum's block plus the smoothed block. -/
theorem low_payload (x1 x2 : Vec F S5000x128 .f32) : k2_pay2 x1 x2 = addf x2 x1 := by
  unfold k2_pay2 k2_pay1
  simp only [shapeCast_self]

/-- The high-pass payload: the running sum's block plus (input block minus smoothed block). -/
theorem high_payload (x0 x1 x3 : Vec F S5000x128 .f32) : k2_pay3 x0 x1 x3 = addf x3 (subf x0 x1) := by
  unfold k2_pay3 k2_pay1
  simp only [shapeCast_self]

/-- Every window's block index at grid point `t` is `(t, 0)`. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- `l + s` over the whole reshaped table. -/
abbrev lowSum (l s : S75000x128.Idx → Elt F .f32) : S75000x128.Idx → Elt F .f32 :=
  fun i => FloatOps.addf (l i) (s i)

/-- `h + (c - s)` over the whole reshaped table. -/
abbrev highSum (h c s : S75000x128.Idx → Elt F .f32) : S75000x128.Idx → Elt F .f32 :=
  fun i => FloatOps.addf (h i) (FloatOps.subf (c i) (s i))

/-- An input window's element `j` of block `t` sits in its array where the output window's element `j` of block `t`
    sits in its own: row `5000 t + j₀`, lane `j₁`. -/
theorem emb_eq (t : Fin cfg2.N) (j : S5000x128.Idx) :
    ((cfg2.win 0).blk t).view.emb j = ((cfg2.win 4).blk t).view.emb j
    ∧ ((cfg2.win 1).blk t).view.emb j = ((cfg2.win 4).blk t).view.emb j
    ∧ ((cfg2.win 2).blk t).view.emb j = ((cfg2.win 4).blk t).view.emb j
    ∧ ((cfg2.win 3).blk t).view.emb j = ((cfg2.win 4).blk t).view.emb j
    ∧ ((cfg2.win 5).blk t).view.emb j = ((cfg2.win 4).blk t).view.emb j := by
  obtain ⟨e00, e01, e10, e11, e20, e21, e30, e31, e40, e41, e50, e51⟩ := block_index t
  refine ⟨?_, ?_, ?_, ?_, ?_⟩
  · funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  · funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  · funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 128 + 1 * (j 1).val = win2_4.index t (1 : Fin 2) * 128 + 1 * (j 1).val; omega
  · funext a; apply Fin.ext
    match a with
    | ⟨0, _⟩ => show win2_3.index t (0 : Fin 2) * 5000 + 1 * (j 0).val = win2_4.index t (0 : Fin 2) * 5000 + 1 * (j 0).val; omega
    | ⟨1, _⟩ => show win2_3.index t (1 : Fin 2) * 128 + 1 * (j 1).val = win2_4.index t (1 : Fin 2) * 128 + 1 * (j 1).val; omega
  · funext a; apply Fin.ext
    match a with
    | ⟨0, _⟩ => show win2_5.index t (0 : Fin 2) * 5000 + 1 * (j 0).val = win2_4.index t (0 : Fin 2) * 5000 + 1 * (j 0).val; omega
    | ⟨1, _⟩ => show win2_5.index t (1 : Fin 2) * 128 + 1 * (j 1).val = win2_4.index t (1 : Fin 2) * 128 + 1 * (j 1).val; omega

/-- What point `t` writes back through the low-pass window is block `t` of `l + s`. -/
theorem low_flushed (c : Dev nD) (t : Fin cfg2.N) :
    (dat2 V c).flushed 4 t = ((cfg2.win 4).blk t).view.read (Elt F) (lowSum (V c main_v57) (V c main_v56)) := by
  show (cfg2.win 4).cut (grid2.coords t) ((dat2 V c).after 4 t) = _
  rw [after2_4]
  unfold out2_4
  rw [View.canon_unit_zero zero_offsets]
  simp only [View.ld_unit_zero (S := S5000x128) zero_offsets]
  rw [low_payload]
  funext j
  obtain ⟨h0, h1, h2, h3, h5⟩ := emb_eq t j
  show FloatOps.addf (V c main_v57 (((cfg2.win 2).blk t).view.emb j)) (V c main_v56 (((cfg2.win 1).blk t).view.emb j))
    = FloatOps.addf (V c main_v57 (((cfg2.win 4).blk t).view.emb j)) (V c main_v56 (((cfg2.win 4).blk t).view.emb j))
  rw [h2, h1]

/-- What point `t` writes back through the high-pass window is block `t` of `h + (c - s)`. -/
theorem high_flushed (c : Dev nD) (t : Fin cfg2.N) :
    (dat2 V c).flushed 5 t = ((cfg2.win 5).blk t).view.read (Elt F) (highSum (V c main_v58) (V c main_v55) (V c main_v56)) := by
  show (cfg2.win 5).cut (grid2.coords t) ((dat2 V c).after 5 t) = _
  rw [after2_5]
  unfold out2_5
  rw [View.canon_unit_zero zero_offsets]
  simp only [View.ld_unit_zero (S := S5000x128) zero_offsets]
  rw [high_payload]
  funext j
  obtain ⟨h0, h1, h2, h3, h5⟩ := emb_eq t j
  show FloatOps.addf (V c main_v58 (((cfg2.win 3).blk t).view.emb j)) (FloatOps.subf (V c main_v55 (((cfg2.win 0).blk t).view.emb j)) (V c main_v56 (((cfg2.win 1).blk t).view.emb j)))
    = FloatOps.addf (V c main_v58 (((cfg2.win 5).blk t).view.emb j)) (FloatOps.subf (V c main_v55 (((cfg2.win 5).blk t).view.emb j)) (V c main_v56 (((cfg2.win 5).blk t).view.emb j)))
  rw [h3, h0, h1, h5]

/-- An index of the low-pass result array lies in point `t`'s block iff each coordinate is in the block's range. -/
theorem mem_low_block (t : Fin cfg2.N) (i : S75000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v59_0).slice (win2_4.rect t)).set ↔ _
  rw [View.set_slice_whole, Rect.mem_set_unit]
  exact Iff.rfl

/-- The same for the high-pass result array. -/
theorem mem_high_block (t : Fin cfg2.N) (i : S75000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v59_1).slice (win2_5.rect t)).set ↔ _
  rw [View.set_slice_whole, Rect.mem_set_unit]
  exact Iff.rfl

/-- Row `r` lies in block `r / 5000`. -/
theorem point_of_row (i : S75000x128.Idx) : (i 0).val / 5000 < cfg2.N := by
  have hi0 : (i 0).val < 75000 := (i 0).isLt
  have hN : cfg2.N = 15 := N_2
  rw [hN]; omega

/-- AFTER THE REGION the low-pass result array holds `l + s` of the operands as the region found them. -/
theorem low_out (c : Dev nD) : (dat2 V c).arrAt 4 cfg2.N = lowSum (V c main_v57) (V c main_v56) :=
  (dat2 V c).arrAt_eq_of_cover 4 (lowSum (V c main_v57) (V c main_v56)) (fun t _ => low_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush2_4 _, ?_⟩
    rw [mem_low_block]
    intro a
    match a with
    | ⟨0, _⟩ => show win2_4.index ⟨(i 0).val / 5000, point_of_row i⟩ (0 : Fin 2) * 5000 ≤ (i 0).val ∧ (i 0).val < win2_4.index ⟨(i 0).val / 5000, point_of_row i⟩ (0 : Fin 2) * 5000 + 5000; rw [e40]; show (i 0).val / 5000 * 5000 ≤ (i 0).val ∧ (i 0).val < (i 0).val / 5000 * 5000 + 5000; omega
    | ⟨1, _⟩ => show win2_4.index ⟨(i 0).val / 5000, point_of_row i⟩ (1 : Fin 2) * 128 ≤ (i 1).val ∧ (i 1).val < win2_4.index ⟨(i 0).val / 5000, point_of_row i⟩ (1 : Fin 2) * 128 + 128; rw [e41]; omega

/-- AFTER THE REGION the high-pass result array holds `h + (c - s)` of the operands as the region found them. -/
theorem high_out (c : Dev nD) : (dat2 V c).arrAt 5 cfg2.N = highSum (V c main_v58) (V c main_v55) (V c main_v56) :=
  (dat2 V c).arrAt_eq_of_cover 5 (highSum (V c main_v58) (V c main_v55) (V c main_v56)) (fun t _ => high_flushed V c t) fun (i : S75000x128.Idx) => by
    have hi0 : (i 0).val < 75000 := (i 0).isLt
    have hi1 : (i 1).val < 128 := (i 1).isLt
    obtain ⟨e00, e01, e10, e11, e20, e21, e30, e31, e40, e41, e50, e51⟩ := block_index ⟨(i 0).val / 5000, point_of_row i⟩
    refine ⟨⟨(i 0).val / 5000, point_of_row i⟩, flush2_5 _, ?_⟩
    rw [mem_high_block]
    intro a
    match a with
    | ⟨0, _⟩ => show win2_5.index ⟨(i 0).val / 5000, point_of_row i⟩ (0 : Fin 2) * 5000 ≤ (i 0).val ∧ (i 0).val < win2_5.index ⟨(i 0).val / 5000, point_of_row i⟩ (0 : Fin 2) * 5000 + 5000; rw [e50]; show (i 0).val / 5000 * 5000 ≤ (i 0).val ∧ (i 0).val < (i 0).val / 5000 * 5000 + 5000; omega
    | ⟨1, _⟩ => show win2_5.index ⟨(i 0).val / 5000, point_of_row i⟩ (1 : Fin 2) * 128 ≤ (i 1).val ∧ (i 1).val < win2_5.index ⟨(i 0).val / 5000, point_of_row i⟩ (1 : Fin 2) * 128 + 128; rw [e51]; omega

end Cert.KernelIdeal.Region2

end
-- ==== Proof.Walk3.lean ====
/-
  The buffers' contents as the program goes, third part: after the host operations between the second and the third
  region, after the third region, and at the return: the two running sums reshaped back are the low-pass and the
  high-pass sums of the specification, and the three results are their user rows at the anchors and the item rows.
-/
import proofs.«422746_j13477607374930_3_alg».proof.Proof.Walk2
import proofs.«422746_j13477607374930_3_alg».proof.Proof.Region2

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Boundary 5: after the third host stretch -/

theorem at5_arg3 (c : Dev nD) : W5 m ρ c (Proc.devRef .tc main_arg3) = ancs m c := by
  dsimp only [W5, hostOps2]; after_results_simp; exact at4_arg3 m ρ c
set_option maxHeartbeats 4000000 in
theorem at5_v55 (c : Dev nD) : W5 m ρ c (Proc.devRef .tc main_v55) = flat (s2 m c) := by
  dsimp only [W5, hostOps2]; after_results_simp
  rw [at4_v34]
  rfl
set_option maxHeartbeats 4000000 in
theorem at5_v56 (c : Dev nD) : W5 m ρ c (Proc.devRef .tc main_v56) = flat (s3 m c) := by
  dsimp only [W5, hostOps2]; after_results_simp
  rw [at4_v34, at4_arg0, at4_arg1, at4_arg2]
  rfl
theorem at5_v57 (c : Dev nD) : W5 m ρ c (Proc.devRef .tc main_v57) = flat (l2 m c) := by
  dsimp only [W5, hostOps2]; after_results_simp
  rw [at4_low]
  show flat (shapeCast S150000x64 (flat (l2 m c)) shapeCasts_S75000x128_S150000x64) = _
  rw [shapeCast_shapeCast]
theorem at5_v58 (c : Dev nD) : W5 m ρ c (Proc.devRef .tc main_v58) = flat (h2 m c) := by
  dsimp only [W5, hostOps2]; after_results_simp
  rw [at4_high]
  show flat (shapeCast S150000x64 (flat (h2 m c)) shapeCasts_S75000x128_S150000x64) = _
  rw [shapeCast_shapeCast]

/-! ## Boundary 6: after the third region -/

theorem at6_low (c : Dev nD) : W6 m ρ c (Proc.devRef .tc main_v59_0) = flat (l3 m c) := by
  refine (W6_arr m ρ c 4).trans ?_
  rw [Region2.low_out]
  show Region2.lowSum (W5 m ρ c (Proc.devRef .tc main_v57)) (W5 m ρ c (Proc.devRef .tc main_v56)) = _
  rw [at5_v57, at5_v56]
  rfl
theorem at6_high (c : Dev nD) : W6 m ρ c (Proc.devRef .tc main_v59_1) = flat (h3 m c) := by
  refine (W6_arr m ρ c 5).trans ?_
  rw [Region2.high_out]
  show Region2.highSum (W5 m ρ c (Proc.devRef .tc main_v58)) (W5 m ρ c (Proc.devRef .tc main_v55)) (W5 m ρ c (Proc.devRef .tc main_v56)) = _
  rw [at5_v58, at5_v55, at5_v56]
  rfl
theorem at6_arg3 (c : Dev nD) : W6 m ρ c (Proc.devRef .tc main_arg3) = ancs m c :=
  (W6_of_ne m ρ c main_arg3 (by decide)).trans (at5_arg3 m ρ c)

/-! ## The return: the three results -/

/-- The low-pass sum reshaped back from the third region's result. -/
theorem unflat_low (c : Dev nD) :
    shapeCast S150000x64 (flat (l3 m c)) shapeCasts_S75000x128_S150000x64
      = HopSpec.lowAll (rows m c) (cols m c) (vals m c) (x0 m c) :=
  shapeCast_shapeCast _ _ _

/-- The high-pass sum reshaped back from the third region's result. -/
theorem unflat_high (c : Dev nD) :
    shapeCast S150000x64 (flat (h3 m c)) shapeCasts_S75000x128_S150000x64
      = HopSpec.highAll (rows m c) (cols m c) (vals m c) (x0 m c) :=
  shapeCast_shapeCast _ _ _

/-- Result 0 (and 2): the low-pass user rows at the anchors. -/
theorem result_user_batch (c : Dev nD) :
    W7 m ρ c (Proc.devRef .tc main_v71) = HopSpec.userBatch (rows m c) (cols m c) (vals m c) (ancs m c)
      (m ((c : Thread nD τ).loc main_arg4)) (m ((c : Thread nD τ).loc main_arg5)) := by
  dsimp only [W7, hostOps3]; after_results_simp
  rw [at6_low, at6_arg3]
  show HopSpec.pick (HopSpec.users (shapeCast S150000x64 (flat (l3 m c)) shapeCasts_S75000x128_S150000x64)) (ancs m c) = _
  rw [unflat_low]
  rfl

/-- Result 1: the low-pass item rows. -/
theorem result_item_table (c : Dev nD) :
    W7 m ρ c (Proc.devRef .tc main_v63) = HopSpec.itemTable (rows m c) (cols m c) (vals m c)
      (m ((c : Thread nD τ).loc main_arg4)) (m ((c : Thread nD τ).loc main_arg5)) := by
  dsimp only [W7, hostOps3]; after_results_simp
  rw [at6_low]
  show HopSpec.items (shapeCast S150000x64 (flat (l3 m c)) shapeCasts_S75000x128_S150000x64) = _
  rw [unflat_low]
  rfl

/-- Result 3: the high-pass user rows at the anchors. -/
theorem result_high_batch (c : Dev nD) :
    W7 m ρ c (Proc.devRef .tc main_v78) = HopSpec.highBatch (rows m c) (cols m c) (vals m c) (ancs m c)
      (m ((c : Thread nD τ).loc main_arg4)) (m ((c : Thread nD τ).loc main_arg5)) := by
  dsimp only [W7, hostOps3]; after_results_simp
  rw [at6_high, at6_arg3]
  show HopSpec.pick (HopSpec.users (shapeCast S150000x64 (flat (h3 m c)) shapeCasts_S75000x128_S150000x64)) (ancs m c) = _
  rw [unflat_high]
  rfl

end Cert.KernelIdeal.Walk

end
-- ==== Proof.RefValue.lean ====
/-
  The reference's three distinct results, as its run states them, are the three functions of the inputs that the
  specification names: the run's composed terms are those functions written out, operation by operation.
-/
import proofs.«422746_j13477607374930_3_alg».proof.Proof.Gen.ReferenceIdeal.Run
import proofs.«422746_j13477607374930_3_alg».proof.Proof.HopSpec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ)

/-- Results 0 and 2: the low-pass user rows at the anchors. -/
theorem user_batch (c : Dev nD) :
    res_main_v59 m c = HopSpec.userBatch (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v59
  rfl

/-- Result 1: the low-pass item rows. -/
theorem item_table (c : Dev nD) :
    res_main_v51 m c = HopSpec.itemTable (m ((c.tc : Thread nD τ).loc main_arg0)) (m ((c.tc : Thread nD τ).loc main_arg1))
      (m ((c.tc : Thread nD τ).loc main_arg2))
      (m ((c.tc : Thread nD τ).loc main_arg4)) (m ((c.tc : Thread nD τ).loc main_arg5)) := by
  unfold res_main_v51
  rfl

/-- Result 3: the high-pass user rows at the anchors. -/
theorem high_batch (c : Dev nD) :
    res_main_v66 m c = HopSpec.highBatch (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v66
  rfl

end Cert.ReferenceIdeal.RefValue

end
-- ==== Proof.lean ====
/-
  Three hops of sparse message passing with the two running sums formed in a kernel, against the plain program.

  Both programs stack the user rows on the item rows, and at every hop gather the edges' source rows, scale them by the
  edge values and scatter-add them onto zeros: the same host operations on both sides, so each hop's smoothed table is
  ONE function `hop` of the table before it. The reference then forms `l + s` and `h + (c - s)` on the [150000, 64]
  tables. The kernel's program relabels the four operands to [75000, 128], forms the same two sums block by block
  (15 blocks of 5000 rows, each grid point writing its own block of both results), and relabels the results back.
  A relabelling commutes with a pointwise sum and a relabelling there and back is the identity, so after each region
  the two tables are again `l + s` and `h + (c - s)`, at every float instance: no law of the extended reals is used
  and the precondition is never opened. The results — the low-pass user rows at the anchors (twice), the low-pass
  item rows, the high-pass user rows at the anchors — are the same three functions of the inputs on both sides.

  The frames of the two kernel programs are the generated ones; the reference's frame is its generated run with the
  results dropped; the ideal pass rewrote nothing, so `preserves` is trivial.
-/
import proofs.«422746_j13477607374930_3_alg».proof.Defs
import proofs.«422746_j13477607374930_3_alg».proof.Proof.Gen.Kernel
import proofs.«422746_j13477607374930_3_alg».proof.Proof.Gen.Kernel.Skeleton
import proofs.«422746_j13477607374930_3_alg».proof.Proof.Gen.Kernel.Launch
import proofs.«422746_j13477607374930_3_alg».proof.Proof.Gen.Kernel.Points
import proofs.«422746_j13477607374930_3_alg».proof.Proof.Gen.Kernel.Frame
import proofs.«422746_j13477607374930_3_alg».proof.Proof.Gen.KernelIdeal
import proofs.«422746_j13477607374930_3_alg».proof.Proof.Gen.KernelIdeal.Skeleton
import proofs.«422746_j13477607374930_3_alg».proof.Proof.Gen.KernelIdeal.Launch
import proofs.«422746_j13477607374930_3_alg».proof.Proof.Gen.KernelIdeal.Points
import proofs.«422746_j13477607374930_3_alg».proof.Proof.Gen.KernelIdeal.Frame
import proofs.«422746_j13477607374930_3_alg».proof.Proof.Gen.ReferenceIdeal
import proofs.«422746_j13477607374930_3_alg».proof.Proof.Gen.ReferenceIdeal.Run
import proofs.«422746_j13477607374930_3_alg».proof.Proof.Gen.Pre_finite_inputs
import proofs.«422746_j13477607374930_3_alg».proof.Proof.FrameRun
import proofs.«422746_j13477607374930_3_alg».proof.Proof.Walk3
import proofs.«422746_j13477607374930_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

/-- From memories agreeing on the arguments both programs end with the specification's three functions of the inputs. -/
theorem algebraic : Cert.algebraic_KernelIdeal_ReferenceIdeal := by
  intro m ρ m' ρ' _ hagree
  refine ⟨fun c => Cert.HopSpec.userBatch (F := Ideal) (Cert.KernelIdeal.Walk.rows m c) (Cert.KernelIdeal.Walk.cols m c) (Cert.KernelIdeal.Walk.vals m c) (Cert.KernelIdeal.Walk.ancs m c)
      (m ((c : Thread Cert.KernelIdeal.nD Cert.KernelIdeal.τ).loc Cert.KernelIdeal.main_arg4)) (m ((c : Thread Cert.KernelIdeal.nD Cert.KernelIdeal.τ).loc Cert.KernelIdeal.main_arg5)),
    fun c => Cert.HopSpec.itemTable (F := Ideal) (Cert.KernelIdeal.Walk.rows m c) (Cert.KernelIdeal.Walk.cols m c) (Cert.KernelIdeal.Walk.vals m c)
      (m ((c : Thread Cert.KernelIdeal.nD Cert.KernelIdeal.τ).loc Cert.KernelIdeal.main_arg4)) (m ((c : Thread Cert.KernelIdeal.nD Cert.KernelIdeal.τ).loc Cert.KernelIdeal.main_arg5)),
    fun c => Cert.HopSpec.userBatch (F := Ideal) (Cert.KernelIdeal.Walk.rows m c) (Cert.KernelIdeal.Walk.cols m c) (Cert.KernelIdeal.Walk.vals m c) (Cert.KernelIdeal.Walk.ancs m c)
      (m ((c : Thread Cert.KernelIdeal.nD Cert.KernelIdeal.τ).loc Cert.KernelIdeal.main_arg4)) (m ((c : Thread Cert.KernelIdeal.nD Cert.KernelIdeal.τ).loc Cert.KernelIdeal.main_arg5)),
    fun c => Cert.HopSpec.highBatch (F := Ideal) (Cert.KernelIdeal.Walk.rows m c) (Cert.KernelIdeal.Walk.cols m c) (Cert.KernelIdeal.Walk.vals m c) (Cert.KernelIdeal.Walk.ancs m c)
      (m ((c : Thread Cert.KernelIdeal.nD Cert.KernelIdeal.τ).loc Cert.KernelIdeal.main_arg4)) (m ((c : Thread Cert.KernelIdeal.nD Cert.KernelIdeal.τ).loc Cert.KernelIdeal.main_arg5)),
    ?_, ?_⟩
  · refine (θ_run Cert.KernelIdeal.defs _ _).mono (fun r h c => ?_) (Cert.KernelIdeal.GenRun.run_main (F := Ideal) m ρ)
    obtain ⟨h71, h63, h78, ha0, ha1, ha2, ha3, ha4, ha5⟩ := h c
    exact ⟨h71.trans (Cert.KernelIdeal.Walk.result_user_batch m ρ c), h63.trans (Cert.KernelIdeal.Walk.result_item_table m ρ c),
      h71.trans (Cert.KernelIdeal.Walk.result_user_batch m ρ c), h78.trans (Cert.KernelIdeal.Walk.result_high_batch m ρ c),
      ha0, ha1, ha2, ha3, ha4, ha5⟩
  · refine (θ_run Cert.ReferenceIdeal.defs _ _).mono (fun r h c => ?_) (Cert.ReferenceIdeal.Value.run (F := Ideal) m' ρ')
    obtain ⟨h59, h51, -, h66, ha0, ha1, ha2, ha3, ha4, ha5⟩ := h c
    obtain ⟨e0, e1, e2, e3, e4, e5⟩ := hagree c
    refine ⟨h59.trans ?_, h51.trans ?_, h59.trans ?_, h66.trans ?_, ha0, ha1, ha2, ha3, ha4, ha5⟩
    · rw [Cert.ReferenceIdeal.RefValue.user_batch, e0, e1, e2, e3, e4, e5]
    · rw [Cert.ReferenceIdeal.RefValue.item_table, e0, e1, e2, e4, e5]
    · rw [Cert.ReferenceIdeal.RefValue.user_batch, e0, e1, e2, e3, e4, e5]
    · rw [Cert.ReferenceIdeal.RefValue.high_batch, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
